-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S200x10000 : Shape := ⟨2, ![200, 10000]⟩
abbrev S200x128 : Shape := ⟨2, ![200, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S200x128, .f32⟩
  | .local _ .vmem, ⟨7, _⟩ => ⟨S200x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The graph-convolution layer as one function of the five argument arrays, index by index, on the extended reals.

  With `seq : [10000, 128]`, `adj : [10000, 10000]`, `W : [128, 128]`, `bias : [128]` and the scalar slope `a`:

    feat  k j = ∑ l, seq (k, l) · W (j, l)                    -- the projected features  seq · Wᵀ
    preact i j = (∑ k, adj (i, k) · feat k j) + bias j         -- aggregation over the graph, then the bias
    layer (i, j) = preact i j        if preact i j ≥ 0
                 = a · preact i j    otherwise                 -- the parametric rectifier

  Both programs compute exactly these sums in exactly this nesting (the inner sum inside each summand of the outer one),
  so no law of the extended reals beyond reading each operation at an index is needed: nothing is regrouped, and the
  inputs' finiteness plays no part.
-/
import Idealize.ShloMosaic.PureOps.Ideal.Laws
import Idealize.ShloMosaic.Lib.ValueIdx

noncomputable section

open scoped BigOperators
open Idealize.ShloMosaic Idealize.ShloMosaic.ValueIdx

namespace Cert.Gcn

abbrev Nodes : ℕ := 10000
abbrev Feats : ℕ := 128

abbrev SNodeFeat : Shape := ⟨2, ![10000, 128]⟩
abbrev SAdj : Shape := ⟨2, ![10000, 10000]⟩
abbrev SWeight : Shape := ⟨2, ![128, 128]⟩
abbrev SBias : Shape := ⟨1, ![128]⟩
abbrev SScalar : Shape := ⟨0, ![]⟩

/-- Entry `(k, j)` of the projected features `seq · Wᵀ`: row `k` of `seq` against row `j` of `W`. -/
def feat (seq : FVec Ideal SNodeFeat .f32) (W : FVec Ideal SWeight .f32) (k : Fin 10000) (j : Fin 128) : EReal :=
  ∑ l : Fin 128, seq (ix2 k l) * W (ix2 j l)

/-- Entry `(i, j)` before the rectifier: row `i` of the adjacency against column `j` of the features, plus the bias. -/
def preact (seq : FVec Ideal SNodeFeat .f32) (adj : FVec Ideal SAdj .f32) (W : FVec Ideal SWeight .f32)
    (bias : FVec Ideal SBias .f32) (i : Fin 10000) (j : Fin 128) : EReal :=
  (∑ k : Fin 10000, adj (ix2 i k) * feat seq W k j) + bias (ix1 j)

/-- The parametric rectifier on one extended real, as both programs spell it: a comparison against the zero word selects
    the value itself or its multiple by the slope. -/
def prelu (a z : EReal) : EReal :=
  Scalar.select (FloatOps.cmpf (F := Ideal) (φ := .f32) .oge z (Ideal.ofBits .f32 0x00000000#32)) z (a * z)

/-- The layer's result at `(i, j)`. -/
def layer (seq : FVec Ideal SNodeFeat .f32) (adj : FVec Ideal SAdj .f32) (W : FVec Ideal SWeight .f32)
    (bias : FVec Ideal SBias .f32) (a : FVec Ideal SScalar .f32) : FVec Ideal SNodeFeat .f32 :=
  fun y => prelu (a ix0) (preact seq adj W bias (y 0) (y 1))

theorem layer_apply (seq : FVec Ideal SNodeFeat .f32) (adj : FVec Ideal SAdj .f32) (W : FVec Ideal SWeight .f32)
    (bias : FVec Ideal SBias .f32) (a : FVec Ideal SScalar .f32) (i : Fin 10000) (j : Fin 128) :
    layer seq adj W bias a (ix2 i j) = prelu (a ix0) (preact seq adj W bias i j) := rfl

end Cert.Gcn

end
-- ==== Proof.RefLayer.lean ====
/-
  The reference computes the layer.

  Its twelve host operations, read one at a time at an index `(i, j)`: the transposed weight at `(l, j)` is `W (j, l)`; the first
  product at `(k, j)` is `∑ l, seq (k, l) · W (j, l)`, the projected feature; the second at `(i, j)` sums `adj (i, k)` against that
  feature over `k`; the two broadcasts put `bias j` in every row; then the comparison against the zero word, the multiple by the
  slope (a scalar broadcast to every entry) and the selection are, entry by entry, the rectifier as the specification spells it.
-/
import proofs.«128482_g6158983102812_cont_9to1_m_282_18_alg».proof.Proof.Gen.ReferenceIdeal.Read
import proofs.«128482_g6158983102812_cont_9to1_m_282_18_alg».proof.Proof.GcnSpec

noncomputable section

open scoped BigOperators
open Idealize.ShloMosaic Idealize.ShloMosaic.ValueIdx

namespace Cert.ReferenceIdeal.RefValue

open Cert.ReferenceIdeal Cert.ReferenceIdeal.Read

/-- The left index of the aggregation at `(i, j)` and summation index `k` is `(i, k)`. -/
theorem agg_lidx (i : Fin 10000) (j : Fin 128) (k : Fin 10000) : lidx_main_v2 (ix2 i j) k = ix2 i k :=
  funext fun a => Fin.ext (by match a with | ⟨0, _⟩ => rfl | ⟨1, _⟩ => rfl)

/-- Its right index is `(k, j)`. -/
theorem agg_ridx (i : Fin 10000) (j : Fin 128) (k : Fin 10000) : ridx_main_v2 (ix2 i j) k = ix2 k j :=
  funext fun a => Fin.ext (by match a with | ⟨0, _⟩ => rfl | ⟨1, _⟩ => rfl)

/-- The left index of the projection at `(k, j)` and summation index `l` is `(k, l)`. -/
theorem proj_lidx (k : Fin 10000) (j : Fin 128) (l : Fin 128) : lidx_main_v1 (ix2 k j) l = ix2 k l :=
  funext fun a => Fin.ext (by match a with | ⟨0, _⟩ => rfl | ⟨1, _⟩ => rfl)

/-- Its right index, sent through the transposition, is `(j, l)`: row `j` of the weight. -/
theorem proj_ridx (k : Fin 10000) (j : Fin 128) (l : Fin 128) : idx_main_v0 (ridx_main_v1 (ix2 k j) l) = ix2 j l :=
  funext fun a => Fin.ext (by match a with | ⟨0, _⟩ => rfl | ⟨1, _⟩ => rfl)

/-- The two broadcasts of the bias read entry `j` of it at `(i, j)`. -/
theorem bias_idx (i : Fin 10000) (j : Fin 128) : idx_main_v3 (idx_main_v4 (ix2 i j)) = ix1 j :=
  funext fun a => Fin.ext (by match a with | ⟨0, _⟩ => rfl)

/-- The first product is the projected feature. -/
theorem proj_eq (x0 : FVec Ideal S10000x128 .f32) (x2 : FVec Ideal S128x128 .f32) (k : Fin 10000) (j : Fin 128) :
    val_main_v1 (F := Ideal) x0 x2 (ix2 k j) = Cert.Gcn.feat x0 x2 k j := by
  rw [val_main_v1_apply]
  unfold Cert.Gcn.feat
  refine Finset.sum_congr rfl fun l _ => ?_
  rw [val_main_v0_apply, proj_lidx, proj_ridx]

/-- The sum before the rectifier is the specification's. -/
theorem preact_eq (x0 : FVec Ideal S10000x128 .f32) (x1 : FVec Ideal S10000x10000 .f32) (x2 : FVec Ideal S128x128 .f32)
    (x3 : FVec Ideal S128 .f32) (i : Fin 10000) (j : Fin 128) :
    val_main_v5 (F := Ideal) x0 x1 x2 x3 (ix2 i j) = Cert.Gcn.preact x0 x1 x2 x3 i j := by
  rw [val_main_v5_apply, val_main_v2_apply, val_main_v4_apply, val_main_v3_apply, bias_idx]
  unfold Cert.Gcn.preact
  refine congrArg (· + x3 (ix1 j)) (Finset.sum_congr rfl fun k _ => ?_)
  rw [agg_lidx, agg_ridx, proj_eq]

/-- The reference's result, as a whole array, is the layer of its five arguments. -/
theorem result_eq (x0 : FVec Ideal S10000x128 .f32) (x1 : FVec Ideal S10000x10000 .f32) (x2 : FVec Ideal S128x128 .f32)
    (x3 : FVec Ideal S128 .f32) (x4 : FVec Ideal S_ .f32) :
    val_main_v10 (F := Ideal) x0 x1 x2 x3 x4 = Cert.Gcn.layer x0 x1 x2 x3 x4 := by
  funext y
  obtain ⟨i, j, rfl⟩ : ∃ (i : Fin 10000) (j : Fin 128), y = ix2 i j := ⟨y 0, y 1, eq_ix2 y⟩
  rw [Cert.Gcn.layer_apply, val_main_v10_apply, val_main_v7_apply, val_main_v9_apply, val_main_v8_apply, val_main_v6_apply,
    val_main_cst_apply, preact_eq]
  rfl

end Cert.ReferenceIdeal.RefValue

end
-- ==== Proof.BodyPieces.lean ====
/-
  What one run of the kernel body leaves behind, as values of what it loaded.

  The body has two control cases. At the grid's first point it first stores the projected features — the product of the
  whole `seq` block with the transposed whole `W` block, narrowed to the scratch's element type — into the scratch it
  carries, and only then computes its output block from the adjacency slab and that scratch. At every later point it skips the
  store and reads the scratch as the point before left it. In both cases the output block is ONE covering store whose
  value is the same pure term of four loaded values: the adjacency slab, the scratch, the bias row and the slope; so the
  three facts below say: the first point leaves the projection in the scratch; its output block is that term at the freshly
  stored projection; a later point's output block is that term at the scratch it found.
-/
import proofs.«128482_g6158983102812_cont_9to1_m_282_18_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl

/-- The first point leaves the projection of its `seq` and `W` blocks in the carried scratch. -/
theorem scratch_first (c : Dev nD) (i : grid0.Coords) (a1 : Memref sig .tc .vmem S10000x128 .f32) (h1 : a1.IsWhole)
    (a2 : Memref sig .tc .vmem S200x10000 .f32) (h2 : a2.IsWhole) (a3 : Memref sig .tc .vmem S128x128 .f32) (h3 : a3.IsWhole)
    (a4 : Memref sig .tc .vmem S1x128 .f32) (h4 : a4.IsWhole) (a5 : Memref sig .tc .vmem S1x1 .f32) (h5 : a5.IsWhole)
    (a6 : Memref sig .tc .vmem S200x128 .f32) (h6 : a6.IsWhole) (a7 : Memref sig .tc .vmem S10000x128 .bf16) (h7 : a7.IsWhole)
    (hc : cond0_0 i) (x0 : Vec F S10000x128 .f32) (x1 : Vec F S200x10000 .f32) (x2 : Vec F S128x128 .f32)
    (x3 : Vec F S1x128 .f32) (x4 : Vec F S1x1 .f32) :
    sout0_A_0 c i a1 h1 a2 h2 a3 h3 a4 h4 a5 h5 a6 h6 a7 h7 hc x0 x1 x2 x3 x4 = k0_pay1 x0 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero origin2]
  simp only [View.readAt_eq_ld, h1.read_unread, h3.read_unread, View.ld_unit_zero (S := S10000x128) origin2,
    View.ld_unit_zero (S := S128x128) origin2]

/-- The first point's output block: the body's closing term at the adjacency slab, the projection it has just stored (read
    back from the scratch), the bias row and the slope. -/
theorem out_first (c : Dev nD) (i : grid0.Coords) (a1 : Memref sig .tc .vmem S10000x128 .f32) (h1 : a1.IsWhole)
    (a2 : Memref sig .tc .vmem S200x10000 .f32) (h2 : a2.IsWhole) (a3 : Memref sig .tc .vmem S128x128 .f32) (h3 : a3.IsWhole)
    (a4 : Memref sig .tc .vmem S1x128 .f32) (h4 : a4.IsWhole) (a5 : Memref sig .tc .vmem S1x1 .f32) (h5 : a5.IsWhole)
    (a6 : Memref sig .tc .vmem S200x128 .f32) (h6 : a6.IsWhole) (a7 : Memref sig .tc .vmem S10000x128 .bf16) (h7 : a7.IsWhole)
    (hc : cond0_0 i) (x0 : Vec F S10000x128 .f32) (x1 : Vec F S200x10000 .f32) (x2 : Vec F S128x128 .f32)
    (x3 : Vec F S1x128 .f32) (x4 : Vec F S1x1 .f32) :
    out0_A_5 c i a1 h1 a2 h2 a3 h3 a4 h4 a5 h5 a6 h6 a7 h7 hc x0 x1 x2 x3 x4 = k0_pay2 x1 (k0_pay1 x0 x2) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero origin2]
  simp only [View.readAt_eq_ld, h1.read_unread, h2.read_unread, h3.read_unread, h4.read_unread, h5.read_unread,
    View.readCov_unit_zero (S := S10000x128) _ origin2, View.ld_unit_zero (S := S10000x128) origin2,
    View.ld_unit_zero (S := S128x128) origin2, View.ld_unit_zero (S := S200x10000) origin2,
    View.ld_unit_zero (S := S1x128) origin2, View.ld_unit_zero (S := S1x1) origin2]

/-- A later point's output block: the same term at the scratch as the point before left it. -/
theorem out_later (c : Dev nD) (i : grid0.Coords) (a1 : Memref sig .tc .vmem S10000x128 .f32) (h1 : a1.IsWhole)
    (a2 : Memref sig .tc .vmem S200x10000 .f32) (h2 : a2.IsWhole) (a3 : Memref sig .tc .vmem S128x128 .f32) (h3 : a3.IsWhole)
    (a4 : Memref sig .tc .vmem S1x128 .f32) (h4 : a4.IsWhole) (a5 : Memref sig .tc .vmem S1x1 .f32) (h5 : a5.IsWhole)
    (a6 : Memref sig .tc .vmem S200x128 .f32) (h6 : a6.IsWhole) (a7 : Memref sig .tc .vmem S10000x128 .bf16) (h7 : a7.IsWhole)
    (hc : ¬cond0_0 i) (x0 : Vec F S10000x128 .f32) (x1 : Vec F S200x10000 .f32) (x2 : Vec F S128x128 .f32)
    (x3 : Vec F S1x128 .f32) (x4 : Vec F S1x1 .f32) (xs : Vec F S10000x128 .bf16) :
    out0_B_5 c i a1 h1 a2 h2 a3 h3 a4 h4 a5 h5 a6 h6 a7 h7 hc x0 x1 x2 x3 x4 xs = k0_pay2 x1 xs x3 x4 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero origin2]
  simp only [View.readAt_eq_ld, h2.read_unread, h4.read_unread, h5.read_unread, h7.read_unread,
    View.ld_unit_zero (S := S10000x128) origin2, View.ld_unit_zero (S := S200x10000) origin2,
    View.ld_unit_zero (S := S1x128) origin2, View.ld_unit_zero (S := S1x1) origin2]

end Cert.KernelIdeal.Pieces

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.PayloadAt.lean ====
/-
  The body's two stored values read at an index, on the extended reals.

  The value the first point stores into the scratch is a matrix product of the `seq` block with the transposed `W` block into a
  zero accumulator, then a narrowing of the element type (the identity on extended reals) and a cast to its own shape: at
  `(k, j)` it is `∑ l, seq (k, l) · W (j, l)`, the specification's projected feature.

  The value every point stores into its output block is, at `(r, j)` of the block: the product of the adjacency slab with the
  scratch into a zero accumulator, `∑ k, slab (r, k) · scratch (k, j)`; plus the bias row broadcast down the rows, `bias (0, j)`;
  then the rectifier with the slope read from its one-entry block. Each product is the library's sum over the record's
  contraction index set, re-indexed by that set's single coordinate.
-/
import proofs.«128482_g6158983102812_cont_9to1_m_282_18_alg».proof.Proof.Gen.KernelIdeal.Skeleton
import proofs.«128482_g6158983102812_cont_9to1_m_282_18_alg».proof.Proof.LibPlainMatmul
import proofs.«128482_g6158983102812_cont_9to1_m_282_18_alg».proof.Proof.GcnSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.PayloadAt

open Cert.KernelIdeal Cert.KernelIdeal.Gen

/-! ## The two products' index maps: rows of the left operand, columns of the right, one contracted axis -/

theorem proj_lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem proj_lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem proj_rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem proj_rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem agg_lhs_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem agg_lhs_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem agg_rhs_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem agg_rhs_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-! ## The stored values at an index -/

/-- The scratch's stored value at `(k, j)` is the projected feature of row `k` of the `seq` block and row `j` of the `W` block. -/
theorem projection_at (x0 : Vec Ideal S10000x128 .f32) (x2 : Vec Ideal S128x128 .f32) (k : Fin 10000) (j : Fin 128) :
    k0_pay1 (F := Ideal) x0 x2 (ix2 k j) = Cert.Gcn.feat x0 x2 k j := by
  have hT : ∀ l : Fin 128, transpose S128x128 [1, 0] x2 transposes_S128x128_p1_0_S128x128 (ix2 l j) = x2 (ix2 j l) := fun l =>
    transpose_apply [1, 0] x2 transposes_S128x128_p1_0_S128x128 (ix2 l j) (ix2 j l) (fun b => match b with
      | ⟨0, _⟩ => rfl
      | ⟨1, _⟩ => rfl)
  unfold k0_pay1
  refine (congrFun (shapeCast_self _ _) (ix2 k j)).trans ?_
  refine (Cert.LibPlainMatmul.matmul_zero_apply (φ₁ := .f32) (φ₂ := .f32) dot_S10000x128_S128x128_S10000x128_1_0_0_1_n_n none rfl rfl proj_lhs_0 proj_lhs_1 proj_rhs_0 proj_rhs_1
    x0 (transpose S128x128 [1, 0] x2 transposes_S128x128_p1_0_S128x128) k j).trans ?_
  unfold Cert.Gcn.feat
  exact Finset.sum_congr rfl fun l _ => congrArg (x0 (ix2 k l) * ·) (hT l)

/-- The output block's stored value at `(r, j)`: the rectifier, with the slope block's one entry, of row `r` of the adjacency slab
    against column `j` of the scratch plus entry `j` of the bias row. -/
theorem closing_at (x1 : Vec Ideal S200x10000 .f32) (xs : Vec Ideal S10000x128 .bf16) (x3 : Vec Ideal S1x128 .f32)
    (x4 : Vec Ideal S1x1 .f32) (r : Fin 200) (j : Fin 128) :
    k0_pay2 (F := Ideal) x1 xs x3 x4 (ix2 r j)
      = Cert.Gcn.prelu (x4 (ix2 0 0)) ((∑ k : Fin 10000, x1 (ix2 r k) * xs (ix2 k j)) + x3 (ix2 0 j)) := by
  have hsum : FloatOps.matmul (F := Ideal) (φ₁ := .f32) (φ₂ := .bf16) dot_S200x10000_S10000x128_S200x128_1_0_0_1_n_n none x1 xs (constant (F := Ideal) S200x128 .f32 0x00000000#32) (ix2 r j)
      = ∑ k : Fin 10000, x1 (ix2 r k) * xs (ix2 k j) :=
    Cert.LibPlainMatmul.matmul_zero_apply (φ₁ := .f32) (φ₂ := .bf16) dot_S200x10000_S10000x128_S200x128_1_0_0_1_n_n none rfl rfl agg_lhs_0 agg_lhs_1 agg_rhs_0 agg_rhs_1 x1 xs r j
  have hbias : broadcastTo S200x128 (shapeCast S1x128 x3 shapeCasts_S1x128_S1x128) broadcasts_S1x128_S200x128 (ix2 r j) = x3 (ix2 0 j) :=
    (broadcastTo_apply (shapeCast S1x128 x3 shapeCasts_S1x128_S1x128) broadcasts_S1x128_S200x128 (ix2 r j) (ix2 0 j) (fun a => match a with
      | ⟨0, _⟩ => by show 0 = if (1 : Nat) = 1 then 0 else _; rw [if_pos rfl]
      | ⟨1, _⟩ => by show j.val = if (128 : Nat) = 1 then 0 else j.val; rw [if_neg (by decide)])).trans
      (congrFun (shapeCast_self x3 shapeCasts_S1x128_S1x128) (ix2 0 j))
  have hslope : extractAt ![0, 0] x4 inpos_S1x1_p0_0 = x4 (ix2 0 0) :=
    congrArg x4 (funext fun a => Fin.ext (by match a with | ⟨0, _⟩ => rfl | ⟨1, _⟩ => rfl))
  unfold k0_pay2
  show Cert.Gcn.prelu (extractAt ![0, 0] x4 inpos_S1x1_p0_0)
    (FloatOps.matmul (F := Ideal) (φ₁ := .f32) (φ₂ := .bf16) dot_S200x10000_S10000x128_S200x128_1_0_0_1_n_n none x1 xs (constant (F := Ideal) S200x128 .f32 0x00000000#32) (ix2 r j)
      + broadcastTo S200x128 (shapeCast S1x128 x3 shapeCasts_S1x128_S1x128) broadcasts_S1x128_S200x128 (ix2 r j)) = _
  rw [hsum, hbias, hslope]

end Cert.KernelIdeal.PayloadAt

end
-- ==== Proof.KernelValue.lean ====
/-
  The kernel's result array is the layer of its five arguments.

  The grid has 50 points; point `t` sees the whole `seq`, `W`, bias row and slope cell (their block index never moves and the
  block is the array), rows `200 t … 200 t + 199` of the adjacency, and writes rows `200 t … 200 t + 199` of the result.

  The scratch: the first point stores the projection `seq · Wᵀ` of the whole arrays into it and no later point writes it, so
  by induction on the point it holds that projection after every point. Hence every point's output block is the body's
  closing term at its adjacency slab and that one projection; read at `(r, j)` this is the layer at `(200 t + r, j)`: the
  slab's row `r` is the adjacency's row `200 t + r`, the scratch's entry `(k, j)` is the projected feature, the bias row and the
  slope cell are the bias and the slope reshaped by the two host operations before the call. Each row `i` of the result lies
  in the block of point `i / 200`, so the blocks cover the array and it ends holding the layer everywhere.
-/
import proofs.«128482_g6158983102812_cont_9to1_m_282_18_alg».proof.Proof.Gen.KernelIdeal.Value
import proofs.«128482_g6158983102812_cont_9to1_m_282_18_alg».proof.Proof.BodyPieces
import proofs.«128482_g6158983102812_cont_9to1_m_282_18_alg».proof.Proof.PayloadAt
import proofs.«128482_g6158983102812_cont_9to1_m_282_18_alg».proof.Proof.GcnSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen

section AnyValues

variable {F : FTy → Type} [FloatOps F]
variable (m : (ℓ : Loc nD τ sig) → Buf (Elt F) ℓ)

/-! ## The arrays as the call finds them, and each point's blocks, at their literal shapes -/

abbrev seqArr (c : Dev nD) : Vec F S10000x128 .f32 := V m c main_arg0
abbrev adjArr (c : Dev nD) : Vec F S10000x10000 .f32 := V m c main_arg1
abbrev wArr (c : Dev nD) : Vec F S128x128 .f32 := V m c main_arg2
abbrev biasRowArr (c : Dev nD) : Vec F S1x128 .f32 := V m c main_v0
abbrev slopeCellArr (c : Dev nD) : Vec F S1x1 .f32 := V m c main_v1

abbrev seqBlk (c : Dev nD) (t : Fin cfg0.N) : Vec F S10000x128 .f32 := iblk m c 0 t
abbrev adjBlk (c : Dev nD) (t : Fin cfg0.N) : Vec F S200x10000 .f32 := iblk m c 1 t
abbrev wBlk (c : Dev nD) (t : Fin cfg0.N) : Vec F S128x128 .f32 := iblk m c 2 t
abbrev biasBlk (c : Dev nD) (t : Fin cfg0.N) : Vec F S1x128 .f32 := iblk m c 3 t
abbrev slopeBlk (c : Dev nD) (t : Fin cfg0.N) : Vec F S1x1 .f32 := iblk m c 4 t

/-- The block indices over the grid: the adjacency and the result move one block down per point, everything else stays at
    block `(0, 0)`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- At every point the `seq` block is the whole array (likewise `W`, the bias row and the slope cell below). -/
theorem seqBlk_eq (c : Dev nD) (t : Fin cfg0.N) : seqBlk m c t = seqArr m c := by
  obtain ⟨e0, e1, -⟩ := idx_facts t
  funext j
  show V m c main_arg0 (((cfg0.win 0).blk t).view.emb j) = V m c main_arg0 j
  have h : ((cfg0.win 0).blk t).view.emb j = j := by
    funext a; apply Fin.ext
    match a with
    | ⟨0, _⟩ => show win0_0.index t (0 : Fin 2) * 10000 + 1 * (j 0).val = (j 0).val; omega
    | ⟨1, _⟩ => show win0_0.index t (1 : Fin 2) * 128 + 1 * (j 1).val = (j 1).val; omega
  rw [h]

theorem wBlk_eq (c : Dev nD) (t : Fin cfg0.N) : wBlk m c t = wArr m c := by
  obtain ⟨-, -, -, -, e0, e1, -⟩ := idx_facts t
  funext j
  show V m c main_arg2 (((cfg0.win 2).blk t).view.emb j) = V m c main_arg2 j
  have h : ((cfg0.win 2).blk t).view.emb j = j := by
    funext a; apply Fin.ext
    match a with
    | ⟨0, _⟩ => show win0_2.index t (0 : Fin 2) * 128 + 1 * (j 0).val = (j 0).val; omega
    | ⟨1, _⟩ => show win0_2.index t (1 : Fin 2) * 128 + 1 * (j 1).val = (j 1).val; omega
  rw [h]

theorem biasBlk_eq (c : Dev nD) (t : Fin cfg0.N) : biasBlk m c t = biasRowArr m c := by
  obtain ⟨-, -, -, -, -, -, e0, e1, -⟩ := idx_facts t
  funext j
  show V m c main_v0 (((cfg0.win 3).blk t).view.emb j) = V m c main_v0 j
  have h : ((cfg0.win 3).blk t).view.emb j = j := by
    funext a; apply Fin.ext
    match a with
    | ⟨0, _⟩ => show win0_3.index t (0 : Fin 2) * 1 + 1 * (j 0).val = (j 0).val; omega
    | ⟨1, _⟩ => show win0_3.index t (1 : Fin 2) * 128 + 1 * (j 1).val = (j 1).val; omega
  rw [h]

theorem slopeBlk_eq (c : Dev nD) (t : Fin cfg0.N) : slopeBlk m c t = slopeCellArr m c := by
  obtain ⟨-, -, -, -, -, -, -, -, e0, e1, -⟩ := idx_facts t
  funext j
  show V m c main_v1 (((cfg0.win 4).blk t).view.emb j) = V m c main_v1 j
  have h : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 1 + 1 * (j 1).val = (j 1).val; omega
  rw [h]

/-- Row `r` of point `t`'s adjacency slab is row `200 t + r` of the adjacency. -/
theorem adjBlk_apply (c : Dev nD) (t : Fin cfg0.N) (r : Fin 200) (k : Fin 10000) (hb : 200 * t.val + r.val < 10000) :
    adjBlk m c t (ix2 r k) = adjArr m c (ix2 ⟨200 * t.val + r.val, hb⟩ k) := by
  obtain ⟨-, -, e0, e1, -⟩ := idx_facts t
  show V m c main_arg1 (((cfg0.win 1).blk t).view.emb (ix2 r k)) = V m c main_arg1 (ix2 ⟨200 * t.val + r.val, hb⟩ k)
  have h : ((cfg0.win 1).blk t).view.emb (ix2 r k) = ix2 ⟨200 * t.val + r.val, hb⟩ k := by
    funext a; apply Fin.ext
    match a with
    | ⟨0, _⟩ => show win0_1.index t (0 : Fin 2) * 200 + 1 * r.val = 200 * t.val + r.val; omega
    | ⟨1, _⟩ => show win0_1.index t (1 : Fin 2) * 10000 + 1 * k.val = k.val; omega
  rw [h]

/-- The bias row and the slope cell are the bias and the slope reshaped to `[1, 128]` and `[1, 1]` before the call. -/
theorem biasRow_eq (c : Dev nD) :
    biasRowArr m c = shapeCast S1x128 (m ((c : Thread nD τ).loc main_arg3)) shapeCasts_S128_S1x128 := by
  dsimp only [biasRowArr, V, hostOps0]
  after_results
  rfl

theorem slopeCell_eq (c : Dev nD) :
    slopeCellArr m c = shapeCast S1x1 (m ((c : Thread nD τ).loc main_arg4)) shapeCasts_S_S1x1 := by
  dsimp only [slopeCellArr, V, hostOps0]
  after_results
  rfl

/-- Entry `(0, j)` of the bias row is entry `j` of the bias; the slope cell's one entry is the slope. -/
theorem biasRow_apply (c : Dev nD) (j : Fin 128) : biasRowArr m c (ix2 0 j) = m ((c : Thread nD τ).loc main_arg3) (ix1 j) := by
  rw [biasRow_eq]
  exact shapeCast_apply _ shapeCasts_S128_S1x128 (ix2 0 j) (ix1 j) (by
    rw [Shape.rowMajor_val_one, Shape.rowMajor_val_two]; show j.val = 0 * 128 + j.val; omega)

theorem slopeCell_apply (c : Dev nD) : slopeCellArr m c (ix2 0 0) = m ((c : Thread nD τ).loc main_arg4) ix0 := by
  rw [slopeCell_eq]
  exact shapeCast_apply _ shapeCasts_S_S1x1 (ix2 0 0) ix0 (by decide)

/-- The projection of the whole `seq` and `W` arrays, as the scratch's element type holds it. -/
abbrev projArr (c : Dev nD) : Vec F S10000x128 .bf16 := k0_pay1 (seqArr m c) (wArr m c)

/-- After every point the carried scratch holds the projection of the whole arrays: the first point stores it (its `seq` and
    `W` blocks are the whole arrays), every later point leaves the scratch as it found it. -/
theorem scratch_eq (c : Dev nD) : ∀ (n : ℕ) (hn : n < cfg0.N), (outsAt0 m c n hn).2 = projArr m c
  | 0, hn => by
    have h0 : (⟨0, hn⟩ : Fin cfg0.N).val % 50 = 0 := rfl
    rw [outsAt0_A m c ⟨0, hn⟩ h0]
    dsimp only
    refine (Pieces.scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr h0) (seqBlk m c ⟨0, hn⟩) (adjBlk m c ⟨0, hn⟩) (wBlk m c ⟨0, hn⟩) (biasBlk m c ⟨0, hn⟩) (slopeBlk m c ⟨0, hn⟩)).trans ?_
    rw [seqBlk_eq, wBlk_eq]
  | n + 1, hn => by
    have hN : cfg0.N = 50 := N_0
    have hB : ¬(⟨n + 1, hn⟩ : Fin cfg0.N).val % 50 = 0 := by dsimp only; omega
    rw [outsAt0_B m c ⟨n + 1, hn⟩ hB]
    dsimp only
    unfold sout0_B_0
    exact scratch_eq c n _

/-- What every point leaves in its output block: the body's closing term at the point's adjacency slab, the projection of
    the whole arrays, the bias row and the slope cell. -/
theorem outBlk_eq (c : Dev nD) (t : Fin cfg0.N) :
    (outsAt0 m c t.val t.isLt).1 = k0_pay2 (adjBlk m c t) (projArr m c) (biasRowArr m c) (slopeCellArr m c) := by
  by_cases h0 : t.val % 50 = 0
  · rw [outsAt0_A m c t h0]
    dsimp only
    refine (Pieces.out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (seqBlk m c t) (adjBlk m c t) (wBlk m c t) (biasBlk m c t) (slopeBlk m c t)).trans ?_
    rw [seqBlk_eq, wBlk_eq, biasBlk_eq, slopeBlk_eq]
  · rw [outsAt0_B m c t h0]
    dsimp only
    refine (Pieces.out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (seqBlk m c t) (adjBlk m c t) (wBlk m c t) (biasBlk m c t) (slopeBlk m c t)
      ((outsAt0 m c (t.val - 1) (Nat.lt_of_le_of_lt (Nat.sub_le _ _) t.isLt)).2)).trans ?_
    rw [scratch_eq, biasBlk_eq, slopeBlk_eq]

end AnyValues

section OnExtendedReals

variable (m : (ℓ : Loc nD τ sig) → Buf (Elt Ideal) ℓ) (ρ : Dev nD → PrngReg)

/-- The layer of the five argument arrays as launched on core `c`. -/
abbrev result (c : Dev nD) : FVec Ideal S10000x128 .f32 :=
  Cert.Gcn.layer (m ((c : Thread nD τ).loc main_arg0)) (m ((c : Thread nD τ).loc main_arg1)) (m ((c : Thread nD τ).loc main_arg2))
    (m ((c : Thread nD τ).loc main_arg3)) (m ((c : Thread nD τ).loc main_arg4))

/-- Row `r` of point `t`'s output block is row `200 t + r` of the layer: the slab's row is that row of the adjacency, the
    scratch's column is the projected features' column, the bias row and the slope cell are the reshaped arguments. -/
theorem outBlk_apply (c : Dev nD) (t : Fin cfg0.N) (r : Fin 200) (o : Fin 128) (hb : 200 * t.val + r.val < 10000) :
    k0_pay2 (F := Ideal) (adjBlk m c t) (projArr m c) (biasRowArr m c) (slopeCellArr m c) (ix2 r o)
      = result m c (ix2 ⟨200 * t.val + r.val, hb⟩ o) := by
  rw [PayloadAt.closing_at, slopeCell_apply, biasRow_apply]
  show _ = Cert.Gcn.prelu (m ((c : Thread nD τ).loc main_arg4) ix0)
    (Cert.Gcn.preact (m ((c : Thread nD τ).loc main_arg0)) (m ((c : Thread nD τ).loc main_arg1)) (m ((c : Thread nD τ).loc main_arg2))
      (m ((c : Thread nD τ).loc main_arg3)) ⟨200 * t.val + r.val, hb⟩ o)
  unfold Cert.Gcn.preact
  refine congrArg (Cert.Gcn.prelu _) (congrArg (· + m ((c : Thread nD τ).loc main_arg3) (ix1 o)) (Finset.sum_congr rfl fun k _ => ?_))
  have hp : projArr m c (ix2 k o) = Cert.Gcn.feat (seqArr m c) (wArr m c) k o := PayloadAt.projection_at _ _ k o
  have e0 : seqArr m c = m ((c : Thread nD τ).loc main_arg0) := V_main_arg0 m c
  have e1 : adjArr m c = m ((c : Thread nD τ).loc main_arg1) := V_main_arg1 m c
  have e2 : wArr m c = m ((c : Thread nD τ).loc main_arg2) := V_main_arg2 m c
  rw [adjBlk_apply m c t r k hb, hp, e0, e1, e2]

/-- What point `t` writes back is block `t` of the layer. -/
theorem flushed_eq (c : Dev nD) (t : Fin cfg0.N) :
    (dats m 0 c).flushed 5 t = ((cfg0.win 5).blk t).view.read (Elt Ideal) (result m c) := by
  have hN : t.val < 50 := lt_of_lt_of_eq t.isLt (show cfg0.N = 50 from N_0)
  obtain ⟨-, -, -, -, -, -, -, -, -, -, e0, e1⟩ := idx_facts t
  rw [Cert.KernelIdeal.Value.flushed5, outBlk_eq]
  funext j
  obtain ⟨r, o, rfl⟩ : ∃ (r : Fin 200) (o : Fin 128), j = ix2 r o := ⟨j 0, j 1, eq_ix2 j⟩
  have hb : 200 * t.val + r.val < 10000 := by have := r.isLt; omega
  show k0_pay2 (F := Ideal) (adjBlk m c t) (projArr m c) (biasRowArr m c) (slopeCellArr m c) (ix2 r o)
    = result m c (((cfg0.win 5).blk t).view.emb (ix2 r o))
  have h : ((cfg0.win 5).blk t).view.emb (ix2 r o) = ix2 ⟨200 * t.val + r.val, hb⟩ o := by
    funext a; apply Fin.ext
    match a with
    | ⟨0, _⟩ => show win0_5.index t (0 : Fin 2) * 200 + 1 * r.val = 200 * t.val + r.val; omega
    | ⟨1, _⟩ => show win0_5.index t (1 : Fin 2) * 128 + 1 * o.val = o.val; omega
  rw [h]
  exact outBlk_apply m c t r o hb

/-- An index of the result array is in point `t`'s block iff each coordinate is in the block's range on its axis. -/
theorem mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v2).slice (win0_5.rect t)).set ↔ _
  rw [View.set_slice_whole, Rect.mem_set_unit]
  exact Iff.rfl

/-- Every row of the result array lies in the block of the point numbered by the row's quotient by 200. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := N_0
  let t : Fin cfg0.N := ⟨(i 0).val / 200, by omega⟩
  obtain ⟨-, -, -, -, -, -, -, -, -, -, e0, e1⟩ := idx_facts t
  have ht : t.val = (i 0).val / 200 := rfl
  refine ⟨t, flush0_5 t, ?_⟩
  rw [mem_blk]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 128 ≤ (i 1).val ∧ (i 1).val < win0_5.index t (1 : Fin 2) * 128 + 128; omega

/-- So the result array ends holding the layer. -/
theorem final (c : Dev nD) : (dats m 0 c).arrAt 5 cfg0.N = result m c :=
  (dats m 0 c).arrAt_eq_of_cover 5 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end OnExtendedReals

end Cert.KernelIdeal.LayerValue

end
-- ==== Proof.lean ====
/-
  A graph-convolution layer, `PReLU(adj · (seq · Wᵀ) + bias)`, as one fused kernel against the plain composition.

  The kernel walks the 10000 rows of the adjacency in 50 slabs of 200. At the first slab it also computes the projected
  features `seq · Wᵀ` once, into a scratch it keeps for the rest of the walk; at every slab it multiplies the slab by that
  scratch, adds the bias row, and applies the parametric rectifier. The reference computes the same four steps on whole
  arrays. On the extended reals both are, at every `(i, j)`,

      prelu a ( (∑ k, adj (i, k) · (∑ l, seq (k, l) · W (j, l))) + bias j ),

  with the sums nested the same way on both sides: no sum is regrouped and no factor moved across a sum, so the equality is
  read off operation by operation and never uses that the inputs are finite. What has to be shown on the kernel's side
  is that the scratch still holds the projection of the WHOLE `seq` and `W` at every later slab (it is stored at the first
  slab and never written again), and that the 50 blocks of 200 rows tile the result.

  Proof/GcnSpec.lean states the layer; Proof/RefLayer.lean reads the reference's operations as that function;
  Proof/BodyPieces.lean and Proof/PayloadAt.lean read what one run of the body stores, as values and then at an index;
  Proof/KernelValue.lean carries the scratch across the grid, reads each written-back block as a block of the layer and
  covers the result array. The idealization rewrote no operation, so the kernel and its idealization are one text.
-/
import proofs.«128482_g6158983102812_cont_9to1_m_282_18_alg».proof.Defs
import proofs.«128482_g6158983102812_cont_9to1_m_282_18_alg».proof.Proof.Gen.Kernel
import proofs.«128482_g6158983102812_cont_9to1_m_282_18_alg».proof.Proof.Gen.Kernel.Frame
import proofs.«128482_g6158983102812_cont_9to1_m_282_18_alg».proof.Proof.Gen.KernelIdeal
import proofs.«128482_g6158983102812_cont_9to1_m_282_18_alg».proof.Proof.Gen.KernelIdeal.Frame
import proofs.«128482_g6158983102812_cont_9to1_m_282_18_alg».proof.Proof.Gen.KernelIdeal.Value
import proofs.«128482_g6158983102812_cont_9to1_m_282_18_alg».proof.Proof.Gen.ReferenceIdeal
import proofs.«128482_g6158983102812_cont_9to1_m_282_18_alg».proof.Proof.Gen.ReferenceIdeal.Run
import proofs.«128482_g6158983102812_cont_9to1_m_282_18_alg».proof.Proof.Gen.ReferenceIdeal.Read
import proofs.«128482_g6158983102812_cont_9to1_m_282_18_alg».proof.Proof.Gen.Pre_finite_inputs
import proofs.«128482_g6158983102812_cont_9to1_m_282_18_alg».proof.Proof.GcnSpec
import proofs.«128482_g6158983102812_cont_9to1_m_282_18_alg».proof.Proof.RefLayer
import proofs.«128482_g6158983102812_cont_9to1_m_282_18_alg».proof.Proof.KernelValue
import Idealize.ShloMosaic.Adequacy
import Idealize.ShloMosaic.Init

noncomputable section

namespace Cert.Proof

open Idealize.ShloMosaic Idealize.ShloMosaic.TcCoe Idealize.SL.Sem

/-- The reference's run ends with its arguments as launched (its result dropped). -/
theorem frame_reference [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at the layer of its arguments, and the
    reference's at its composed term of the same arguments, which is that layer too. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
